-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S2048x512 : Shape := ⟨2, ![2048, 512]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S8x2048x2048 .f32) (main_arg1 : FVec F S2048x512 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S8x2048x2048 : Shape := ⟨3, ![8, 2048, 2048]⟩
abbrev S2048x512 : Shape := ⟨2, ![2048, 512]⟩
abbrev S16384x2048 : Shape := ⟨2, ![16384, 2048]⟩
abbrev S16384x512 : Shape := ⟨2, ![16384, 512]⟩
abbrev S2048x2048 : Shape := ⟨2, ![2048, 2048]⟩
abbrev S8x2048x512 : Shape := ⟨3, ![8, 2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S8x2048x2048, .f32⟩
  | .hbm, ⟨1, _⟩ => ⟨S2048x512, .f32⟩
  | .hbm, ⟨2, _⟩ => ⟨S16384x2048, .f32⟩
  | .hbm, ⟨3, _⟩ => ⟨S16384x512, .f32⟩
  | .hbm, ⟨4, _⟩ => ⟨S8x2048x512, .f32⟩
  | .local _ .vmem, ⟨0, _⟩ => ⟨S2048x2048, .f32⟩
  | .local _ .vmem, ⟨1, _⟩ => ⟨S2048x2048, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x2048x2048_S16384x2048 : S8x2048x2048.ShapeCasts S16384x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S16384x512_S8x2048x512 : S16384x512.ShapeCasts S8x2048x512
  dot_S2048x2048_S2048x512_S2048x512_1_0_0_1_n_n_wf : DotDims.WF S2048x2048 S2048x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x2048.size a
  hwx0_0 : ∀ i : grid0.Coords, EltTy.bits .f32 = 32 ∨ (Rect.block (s := S16384x2048) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S16384x512.size a
  hwx0_2 : ∀ i : grid0.Coords, EltTy.bits .f32 = 32 ∨ (Rect.block (s := S16384x512) S2048x512.size (cc0_transform_2 i) (hinb0_2 i)).WholeWords (EltTy.packing .f32)

variable [Facts₀]

def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf

abbrev win0_0 : Pipeline.Window sig grid0 :=
  Pipeline.Window.ofSpec (Memref.whole main_v0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S2048x512 : Shape := ⟨2, ![2048, 512]⟩
abbrev S16384x2048 : Shape := ⟨2, ![16384, 2048]⟩
abbrev S16384x512 : Shape := ⟨2, ![16384, 512]⟩
abbrev S512x512 : Shape := ⟨2, ![512, 512]⟩
abbrev S8x2048x512 : Shape := ⟨3, ![8, 2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x2048x2048, .f32⟩
  | .hbm, ⟨1, _⟩ => ⟨S2048x512, .f32⟩
  | .hbm, ⟨2, _⟩ => ⟨S16384x2048, .f32⟩
  | .hbm, ⟨3, _⟩ => ⟨S16384x512, .f32⟩
  | .hbm, ⟨4, _⟩ => ⟨S8x2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S8x2048x2048_S16384x2048 : S8x2048x2048.ShapeCasts S16384x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S16384x512_S8x2048x512 : S16384x512.ShapeCasts S8x2048x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x2048.size a
  hwx0_0 : ∀ i : grid0.Coords, EltTy.bits .f32 = 32 ∨ (Rect.block (s := S16384x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x512.size a
  hwx0_1 : ∀ i : grid0.Coords, EltTy.bits .f32 = 32 ∨ (Rect.block (s := S2048x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== Proof.KernelBlock.lean ====
/-
  What the kernel's body computes at one grid point, entry by entry: from its 2048 x 2048 block `x0` of the
  left factor and the whole 2048 x 512 right factor `x1`, entry (r, d) of the block it stores is the sum over
  the 2048 columns k of `x0 (r, k) * x1 (k, d)`. Over the extended reals the narrowing of both operands to
  bf16 is the identity, the accumulator is the zero block, and the matrix unit's product is that plain sum.
-/
import proofs.«107316_g2000205745379852_pallasbulk_1175_7_alg».proof.Proof.Gen.KernelIdeal.Frame
import Idealize.ShloMosaic.PureOps.Ideal.Laws
import Idealize.ShloMosaic.Lib.ValueIdx
import Idealize.ShloMosaic.Lib.Pipeline.Value

noncomputable section

open Idealize.ShloMosaic Idealize.ShloMosaic.TcCoe Idealize.ShloMosaic.ValueIdx Idealize.SL.Sem
open scoped BigOperators

namespace Cert.KernelIdeal.Block

open Cert.KernelIdeal Cert.KernelIdeal.Gen

/-! ## Which entries of the operands a product reads -/

/-- The left operand is read at the output's row … -/
theorem lhs_0 (j : S2048x512.Idx) (k : dot_S2048x2048_S2048x512_S2048x512_1_0_0_1_n_n.contr.Idx) :
    (dot_S2048x2048_S2048x512_S2048x512_1_0_0_1_n_n.lhsIdx j k 0 : ℕ) = j 0 := by
  simp [DotDims.lhsIdx, dot_S2048x2048_S2048x512_S2048x512_1_0_0_1_n_n]; rfl
/-- … and the contracted column; -/
theorem lhs_1 (j : S2048x512.Idx) (k : dot_S2048x2048_S2048x512_S2048x512_1_0_0_1_n_n.contr.Idx) :
    (dot_S2048x2048_S2048x512_S2048x512_1_0_0_1_n_n.lhsIdx j k 1 : ℕ) = k ⟨0, by decide⟩ := by
  simp [DotDims.lhsIdx, dot_S2048x2048_S2048x512_S2048x512_1_0_0_1_n_n]; rfl
/-- the right operand at the contracted row … -/
theorem rhs_0 (j : S2048x512.Idx) (k : dot_S2048x2048_S2048x512_S2048x512_1_0_0_1_n_n.contr.Idx) :
    (dot_S2048x2048_S2048x512_S2048x512_1_0_0_1_n_n.rhsIdx j k 0 : ℕ) = k ⟨0, by decide⟩ := by
  simp [DotDims.rhsIdx, dot_S2048x2048_S2048x512_S2048x512_1_0_0_1_n_n]; rfl
/-- … and the output's column. -/
theorem rhs_1 (j : S2048x512.Idx) (k : dot_S2048x2048_S2048x512_S2048x512_1_0_0_1_n_n.contr.Idx) :
    (dot_S2048x2048_S2048x512_S2048x512_1_0_0_1_n_n.rhsIdx j k 1 : ℕ) = j 1 := by
  simp [DotDims.rhsIdx, dot_S2048x2048_S2048x512_S2048x512_1_0_0_1_n_n]; rfl

/-- The contracted positions are the 2048 columns. -/
abbrev cols : dot_S2048x2048_S2048x512_S2048x512_1_0_0_1_n_n.contr.Idx ≃ Fin 2048 :=
  contrEquiv1 dot_S2048x2048_S2048x512_S2048x512_1_0_0_1_n_n 2048 rfl rfl

/-! ## The stored block, entry by entry -/

/-- Entry (r, d) of the block the body stores is the row-by-column sum of its two loaded blocks. -/
theorem pay_apply (x0 : Vec Ideal S2048x2048 .f32) (x1 : Vec Ideal S2048x512 .f32) (r : Fin 2048) (d : Fin 512) :
    k0_pay1 (F := Ideal) x0 x1 (ix2 r d) = ∑ k : Fin 2048, x0 (ix2 r k) * x1 (ix2 k d) := by
  unfold k0_pay1
  refine (Ideal.matmul_constant_zero_apply _ none _ _ _).trans ?_
  refine (Equiv.sum_comp cols.symm _).symm.trans ?_
  refine Finset.sum_congr rfl fun k _ => ?_
  rw [shapeCast_self]
  show x0 _ * x1 _ = _
  congr 2
  · funext a; apply Fin.ext
    match a with
    | ⟨0, _⟩ => exact lhs_0 _ _
    | ⟨1, _⟩ => exact (lhs_1 _ _).trans (contrEquiv1_symm_val _ 2048 rfl rfl k)
  · funext a; apply Fin.ext
    match a with
    | ⟨0, _⟩ => exact (rhs_0 _ _).trans (contrEquiv1_symm_val _ 2048 rfl rfl k)
    | ⟨1, _⟩ => exact rhs_1 _ _

end Cert.KernelIdeal.Block

end
-- ==== Proof.RowDot.lean ====
/-
  The common value of both programs: the product of a 16384 x 2048 matrix `A` with a 2048 x 512 matrix `W`
  over the extended reals, entry (p, q) the sum over the 2048 columns k of `A (p, k) * W (k, q)`.

  One program forms each entry's sum in one piece; the other adds it up in four consecutive stretches of 512
  columns. Addition of extended reals is commutative and associative (no finiteness is needed), so the sum
  of the first `n + 512` terms is the sum of the first `n` plus the next stretch's. To say "the first n terms"
  the k-th term is extended to every natural number k, zero from 2048 on.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.RowDot

/-- The batch of eight square matrices as given, -/
abbrev SB : Shape := ⟨3, ![8, 2048, 2048]⟩
/-- and the result as returned: eight 2048 x 512 matrices. -/
abbrev SRes : Shape := ⟨3, ![8, 2048, 512]⟩
/-- The left factor's shape (the batch's matrices stacked row under row), -/
abbrev SL : Shape := ⟨2, ![16384, 2048]⟩
/-- the right factor's, -/
abbrev SR : Shape := ⟨2, ![2048, 512]⟩
/-- and the product's. -/
abbrev SO : Shape := ⟨2, ![16384, 512]⟩

variable (A : SL.Idx → EReal) (W : SR.Idx → EReal)

/-- The k-th term of entry (p, q) of the product, for every natural number k: zero from 2048 on. -/
def term (p : Fin 16384) (q : Fin 512) (k : ℕ) : EReal :=
  if h : k < 2048 then A (ix2 p ⟨k, h⟩) * W (ix2 ⟨k, h⟩ q) else 0

/-- Inside the range it is the product of the two entries. -/
theorem term_of_lt (p : Fin 16384) (q : Fin 512) (k : ℕ) (h : k < 2048) :
    term A W p q k = A (ix2 p ⟨k, h⟩) * W (ix2 ⟨k, h⟩ q) := dif_pos h

/-- The product matrix. -/
def prod : SO.Idx → EReal := fun i => ∑ k : Fin 2048, A (ix2 (i 0) k) * W (ix2 k (i 1))

/-- Entry (p, q) is the sum over the 2048 columns. -/
theorem prod_ix2 (p : Fin 16384) (q : Fin 512) :
    prod A W (ix2 p q) = ∑ k : Fin 2048, A (ix2 p k) * W (ix2 k q) := rfl

/-- The sum of the first `n` terms of entry (p, q). -/
def firstTerms (p : Fin 16384) (q : Fin 512) (n : ℕ) : EReal := ∑ k ∈ Finset.range n, term A W p q k

/-- No terms sum to zero. -/
theorem firstTerms_zero (p : Fin 16384) (q : Fin 512) : firstTerms A W p q 0 = 0 := by
  unfold firstTerms; rw [Finset.range_zero, Finset.sum_empty]

/-- One more stretch of 512 columns: the first `n + 512` terms are the first `n` plus the stretch from `n`. -/
theorem firstTerms_stretch (p : Fin 16384) (q : Fin 512) (n : ℕ) :
    firstTerms A W p q (n + 512) = firstTerms A W p q n + ∑ j : Fin 512, term A W p q (n + j.val) := by
  unfold firstTerms
  rw [Finset.sum_range_add, Finset.sum_range (fun j => term A W p q (n + j))]

/-- All 2048 terms are the entry. -/
theorem firstTerms_all (p : Fin 16384) (q : Fin 512) : firstTerms A W p q 2048 = prod A W (ix2 p q) := by
  unfold firstTerms
  rw [prod_ix2, Finset.sum_range]
  exact Finset.sum_congr rfl fun k _ => term_of_lt A W p q k.val k.isLt

/-- What both programs return: the batch's eight matrices stacked into the left factor, the product with `W`,
    and the product's rows dealt back into eight matrices. Both re-arrangements keep the row-major order. -/
def result (adj : SB.Idx → EReal) (W : SR.Idx → EReal) (hin : SB.ShapeCasts SL) (hout : SO.ShapeCasts SRes) :
    SRes.Idx → EReal :=
  shapeCast SRes (prod (shapeCast SL adj hin) W) hout

end Cert.RowDot

end
-- ==== Proof.KernelArray.lean ====
/-
  The kernel's result, read off its run. Its grid has eight points; point t takes rows 2048 t … 2048 t + 2047 of
  the stacked left factor and the whole right factor, and writes back rows 2048 t … 2048 t + 2047 of the
  product: entry (r, d) of its block is the sum over k of `A (2048 t + r, k) * W (k, d)`, which is entry
  (2048 t + r, d) of the product matrix. The eight row blocks tile the product's 16384 rows (row i lies in
  block i / 2048), so after the run the output array is the product matrix. The stacking before the call and
  the dealing-back after it are the two re-arrangements of the common result.
-/
import proofs.«107316_g2000205745379852_pallasbulk_1175_7_alg».proof.Proof.KernelBlock
import proofs.«107316_g2000205745379852_pallasbulk_1175_7_alg».proof.Proof.RowDot
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.Array

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The stacked left factor as the call finds it, -/
abbrev lhsArr (c : Dev nD) : S16384x2048.Idx → EReal := V m c main_v0
/-- and the right factor. -/
abbrev rhsArr (c : Dev nD) : S2048x512.Idx → EReal := V m c main_arg1

/-- Which blocks point t takes: row block t of the left factor and of the output, the right factor whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is its row block of the product matrix. -/
theorem flushed_eq (c : Dev nD) (t : Fin cfg0.N) :
    (dats m 0 c).flushed 2 t
      = ((cfg0.win 2).blk t).view.read (Elt Ideal) (RowDot.prod (lhsArr m c) (rhsArr m c)) := by
  show (cfg0.win 2).cut (grid0.coords t) ((dats m 0 c).after 2 t) = _
  rw [after0_2]
  unfold out0_2
  rw [View.canon_unit_zero hz]
  simp only [View.ld_unit_zero (S := S2048x2048) hz, View.ld_unit_zero (S := S2048x512) hz]
  obtain ⟨e0, e1, e2, e3, e4, e5⟩ := idx_facts t
  funext j
  obtain ⟨r, d, rfl⟩ : ∃ (r : Fin 2048) (d : Fin 512), j = ix2 r d := ⟨j 0, j 1, eq_ix2 j⟩
  show k0_pay1 (F := Ideal) (iblk m c 0 t) (iblk m c 1 t) (ix2 r d)
    = RowDot.prod (lhsArr m c) (rhsArr m c) (((cfg0.win 2).blk t).view.emb (ix2 r d))
  refine (Block.pay_apply (iblk m c 0 t) (iblk m c 1 t) r d).trans ?_
  unfold RowDot.prod
  refine Finset.sum_congr rfl fun k _ => ?_
  congr 1
  · show V m c main_v0 (((cfg0.win 0).blk t).view.emb (ix2 r k)) = V m c main_v0 _
    refine congrArg _ ?_
    funext a; apply Fin.ext
    match a with
    | ⟨0, _⟩ => show win0_0.index t (0 : Fin 2) * 2048 + 1 * r.val = win0_2.index t (0 : Fin 2) * 2048 + 1 * r.val; omega
    | ⟨1, _⟩ => show win0_0.index t (1 : Fin 2) * 2048 + 1 * k.val = k.val; omega
  · show V m c main_arg1 (((cfg0.win 1).blk t).view.emb (ix2 k d)) = V m c main_arg1 _
    refine congrArg _ ?_
    funext a; apply Fin.ext
    match a with
    | ⟨0, _⟩ => show win0_1.index t (0 : Fin 2) * 2048 + 1 * k.val = k.val; omega
    | ⟨1, _⟩ => show win0_1.index t (1 : Fin 2) * 512 + 1 * d.val = win0_2.index t (1 : Fin 2) * 512 + 1 * d.val; omega

/-- An index of the output is in point t's block iff each coordinate is in the block's range on its axis. -/
theorem mem_blk (t : Fin cfg0.N) (i : S16384x512.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v1).slice (win0_2.rect t)).set ↔ _
  rw [View.set_slice_whole, Rect.mem_set_unit]
  exact Iff.rfl

/-- Row i of the output lies in row block i / 2048: the eight blocks tile the array. -/
theorem cover (i : S16384x512.Idx) :
    ∃ t : Fin cfg0.N, (cfg0.win 2).flush t = true ∧ i ∈ ((cfg0.win 2).blk t).view.set := by
  have hi0 : (i 0).val < 16384 := (i 0).isLt
  have hi1 : (i 1).val < 512 := (i 1).isLt
  have hN : cfg0.N = 8 := N_0
  let t : Fin cfg0.N := ⟨(i 0).val / 2048, by rw [hN]; omega⟩
  have ht : t.val = (i 0).val / 2048 := rfl
  obtain ⟨e0, e1, e2, e3, e4, e5⟩ := idx_facts t
  refine ⟨t, flush0_2 t, ?_⟩
  rw [mem_blk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 512 ≤ (i 1).val ∧ (i 1).val < win0_2.index t (1 : Fin 2) * 512 + 512
    omega

/-- So the output array ends holding the product matrix. -/
theorem final (c : Dev nD) : (dats m 0 c).arrAt 2 cfg0.N = RowDot.prod (lhsArr m c) (rhsArr m c) :=
  (dats m 0 c).arrAt_eq_of_cover 2 (RowDot.prod (lhsArr m c) (rhsArr m c)) (fun t _ => flushed_eq m c t) cover

/-- The left factor the call finds is the batch stacked (the one host line before the call). -/
theorem lhsArr_eq (c : Dev nD) :
    lhsArr m c = shapeCast S16384x2048 (m ((c : Thread nD τ).loc main_arg0)) shapeCasts_S8x2048x2048_S16384x2048 := by
  show StableHlo.after hostOps0 (fun b => m (c, b)) (Proc.devRef .tc main_v0) = _
  after_results
  rfl

/-- The right factor is the second argument as given. -/
theorem rhsArr_eq (c : Dev nD) : rhsArr m c = m ((c : Thread nD τ).loc main_arg1) := V_main_arg1 m c

/-- The returned array is the output array dealt back into eight matrices (the one host line after the call). -/
theorem tail_eq (c : Dev nD) :
    Pipeline.afterTail₀ cfgs (dats m) 0 (V0 m) [hostOps1] c main_v2
      = shapeCast S8x2048x512 ((dats m 0 c).arrAt 2 cfg0.N) shapeCasts_S16384x512_S8x2048x512 := by
  unfold Pipeline.afterTail₀
  show StableHlo.after hostOps1 _ (Proc.devRef .tc main_v2) = _
  after_results
  exact congrArg (fun x => shapeCast S8x2048x512 x shapeCasts_S16384x512_S8x2048x512)
    (Pipeline.withArrays_arr spec0 launch0.win.arr_inj c _ _ 2)

/-- The run, read: the returned array is the common result of the two arguments, which end unchanged. -/
theorem run : θ_run defs (onTc (τ := τ) (main (F := Ideal))) ⟨m, fun _ => 0, ρ⟩ fun r => ∀ c : Dev nD,
      r.2.mem ((c.tc : Thread nD τ).loc main_v2)
        = RowDot.result (m ((c.tc : Thread nD τ).loc main_arg0)) (m ((c.tc : Thread nD τ).loc main_arg1))
            shapeCasts_S8x2048x2048_S16384x2048 shapeCasts_S16384x512_S8x2048x512
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans
        ((tail_eq m c).trans (by rw [final, lhsArr_eq, rhsArr_eq]; rfl)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Array

end
-- ==== Proof.RefBlock.lean ====
/-
  What the reference's body does at one grid point, in each of its three cases. Its grid is 32 row blocks by
  4 stretches of 512 columns; the scratch block carries a running sum from stretch to stretch.

    first stretch      : the scratch is reset to the zero block and then holds  0 + X · Y ;
    second and third   : the scratch holding S ends holding  S + X · Y ;
    fourth (last)      : the same, and the output block is stored with what the scratch then holds.

  Here X is the point's 512 x 512 block of the left factor, Y its 512 x 512 block of the right factor, and
  X · Y the matrix unit's product into a zero accumulator: entry (r, d) is the sum over j of X (r, j) * Y (j, d).
-/
import proofs.«107316_g2000205745379852_pallasbulk_1175_7_alg».proof.Proof.Gen.ReferenceIdeal.Frame
import Idealize.ShloMosaic.PureOps.Ideal.Laws
import Idealize.ShloMosaic.Lib.ValueIdx
import Idealize.ShloMosaic.Lib.Pipeline.Value
import Idealize.ShloMosaic.Lib.Tactic

noncomputable section

open Idealize.ShloMosaic Idealize.ShloMosaic.TcCoe Idealize.ShloMosaic.ValueIdx Idealize.SL.Sem
open scoped BigOperators

namespace Cert.ReferenceIdeal.Block

open Cert.ReferenceIdeal Cert.ReferenceIdeal.Gen

theorem hz : (![0, 0] : Fin 2 → Nat) = fun _ => 0 := funext fun a => by fin_cases a <;> rfl

/-! ## The three cases' contents, as the body's own terms (at any float instance) -/

section Pieces
variable {F : FTy → Type} [FloatOps F]

/-- The update every point makes: the scratch holding `acc` ends holding `acc + X · Y`. -/
abbrev step (acc X Y : Vec F S512x512 .f32) : Vec F S512x512 .f32 := k0_pay2 acc X Y

/-- The zero block the first stretch resets the scratch to. -/
abbrev zeroBlock : Vec F S512x512 .f32 := k0_pay1

/-- First stretch: the reset, read back, then the update. -/
theorem scratch_first (c : Dev nD) (i : grid0.Coords) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (hc0 : cond0_0 i) (hc1 : ¬cond0_1 i)
    (x0 x1 : Vec F S512x512 .f32) :
    sout0_A_0 c i a3 h3 a4 h4 a5 h5 a6 h6 hc0 hc1 x0 x1 = step zeroBlock x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S512x512) hz, View.readCov_unit_zero (S := S512x512) _ hz]
  simp only [View.readAt_eq_ld, h3.read_unread, h4.read_unread, View.ld_unit_zero (S := S512x512) hz]

/-- Second and third stretch: the update of what the point before left. -/
theorem scratch_middle (c : Dev nD) (i : grid0.Coords) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (hc0 : ¬cond0_0 i) (hc1 : ¬cond0_1 i)
    (x0 x1 xs0 : Vec F S512x512 .f32) :
    sout0_B_0 c i a3 h3 a4 h4 a5 h5 a6 h6 hc0 hc1 x0 x1 xs0 = step xs0 x0 x1 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero hz]
  simp only [View.readAt_eq_ld, h3.read_unread, h4.read_unread, h6.read_unread, View.ld_unit_zero (S := S512x512) hz]

/-- Last stretch: the same update of the scratch … -/
theorem scratch_last (c : Dev nD) (i : grid0.Coords) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (hc0 : ¬cond0_0 i) (hc1 : cond0_1 i)
    (x0 x1 xs0 : Vec F S512x512 .f32) :
    sout0_C_0 c i a3 h3 a4 h4 a5 h5 a6 h6 hc0 hc1 x0 x1 xs0 = step xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S512x512) hz]

/-- … and the output block is what the scratch then holds (the scratch read back after its update). -/
theorem out_last (c : Dev nD) (i : grid0.Coords) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (hc0 : ¬cond0_0 i) (hc1 : cond0_1 i)
    (x0 x1 xs0 : Vec F S512x512 .f32) :
    out0_C_2 c i a3 h3 a4 h4 a5 h5 a6 h6 hc0 hc1 x0 x1 xs0 = step xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S512x512) hz,
    View.readCov_unit_zero (S := S512x512) _ hz]

end Pieces

/-! ## Which entries of the operands a product reads -/

/-- The left operand is read at the output's row … -/
theorem lhs_0 (j : S512x512.Idx) (k : dot_S512x512_S512x512_S512x512_1_0_0_1_n_n.contr.Idx) :
    (dot_S512x512_S512x512_S512x512_1_0_0_1_n_n.lhsIdx j k 0 : ℕ) = j 0 := by
  simp [DotDims.lhsIdx, dot_S512x512_S512x512_S512x512_1_0_0_1_n_n]; rfl
/-- … and the contracted column; -/
theorem lhs_1 (j : S512x512.Idx) (k : dot_S512x512_S512x512_S512x512_1_0_0_1_n_n.contr.Idx) :
    (dot_S512x512_S512x512_S512x512_1_0_0_1_n_n.lhsIdx j k 1 : ℕ) = k ⟨0, by decide⟩ := by
  simp [DotDims.lhsIdx, dot_S512x512_S512x512_S512x512_1_0_0_1_n_n]; rfl
/-- the right operand at the contracted row … -/
theorem rhs_0 (j : S512x512.Idx) (k : dot_S512x512_S512x512_S512x512_1_0_0_1_n_n.contr.Idx) :
    (dot_S512x512_S512x512_S512x512_1_0_0_1_n_n.rhsIdx j k 0 : ℕ) = k ⟨0, by decide⟩ := by
  simp [DotDims.rhsIdx, dot_S512x512_S512x512_S512x512_1_0_0_1_n_n]; rfl
/-- … and the output's column. -/
theorem rhs_1 (j : S512x512.Idx) (k : dot_S512x512_S512x512_S512x512_1_0_0_1_n_n.contr.Idx) :
    (dot_S512x512_S512x512_S512x512_1_0_0_1_n_n.rhsIdx j k 1 : ℕ) = j 1 := by
  simp [DotDims.rhsIdx, dot_S512x512_S512x512_S512x512_1_0_0_1_n_n]; rfl

/-- The contracted positions are the stretch's 512 columns. -/
abbrev cols : dot_S512x512_S512x512_S512x512_1_0_0_1_n_n.contr.Idx ≃ Fin 512 :=
  contrEquiv1 dot_S512x512_S512x512_S512x512_1_0_0_1_n_n 512 rfl rfl

/-! ## The update and the zero block, entry by entry, over the extended reals -/

/-- Every entry of the zero block is zero. -/
theorem zeroBlock_apply (y : S512x512.Idx) : zeroBlock (F := Ideal) y = 0 := by
  unfold zeroBlock k0_pay1
  rw [shapeCast_self]
  exact Ideal.ofBits_zero_f32

/-- Entry (r, d) after the update is the entry before plus the row-by-column sum over the stretch. -/
theorem step_apply (acc x0 x1 : Vec Ideal S512x512 .f32) (r d : Fin 512) :
    step (F := Ideal) acc x0 x1 (ix2 r d) = acc (ix2 r d) + ∑ j : Fin 512, x0 (ix2 r j) * x1 (ix2 j d) := by
  unfold step k0_pay2
  rw [shapeCast_self, shapeCast_self]
  refine congrArg (acc (ix2 r d) + ·) ?_
  refine (Ideal.matmul_constant_zero_apply _ none _ _ _).trans ?_
  refine (Equiv.sum_comp cols.symm _).symm.trans ?_
  refine Finset.sum_congr rfl fun k _ => ?_
  congr 2
  · funext a; apply Fin.ext
    match a with
    | ⟨0, _⟩ => exact lhs_0 _ _
    | ⟨1, _⟩ => exact (lhs_1 _ _).trans (contrEquiv1_symm_val _ 512 rfl rfl k)
  · funext a; apply Fin.ext
    match a with
    | ⟨0, _⟩ => exact (rhs_0 _ _).trans (contrEquiv1_symm_val _ 512 rfl rfl k)
    | ⟨1, _⟩ => exact rhs_1 _ _

end Cert.ReferenceIdeal.Block

end
-- ==== Proof.RefAccum.lean ====
/-
  The reference's running sum, point by point. Point n of its grid is row block n / 4 and stretch n % 4 (the
  stretch moves fastest). Its left block X is rows 512 (n / 4) …, columns 512 (n % 4) … of the stacked left
  factor A, its right block Y rows 512 (n % 4) … of the right factor W. So entry (r, d) of X · Y is the sum of
  terms 512 (n % 4) … 512 (n % 4) + 511 of entry (512 (n / 4) + r, d) of the product A W, and by induction on n

      after point n the scratch holds, at (r, d), the first 512 (n % 4 + 1) terms of that entry:

  at a first stretch it is 0 plus the first 512 terms; at a later one the point before, n - 1, is in the same
  row block with one stretch fewer, and the update adds the next 512 terms. After a last stretch that is all
  2048 terms: the entry itself, which is what the point stores into its output block.
-/
import proofs.«107316_g2000205745379852_pallasbulk_1175_7_alg».proof.Proof.RefBlock
import proofs.«107316_g2000205745379852_pallasbulk_1175_7_alg».proof.Proof.RowDot

set_option maxRecDepth 16384

noncomputable section

open Idealize.ShloMosaic Idealize.ShloMosaic.TcCoe Idealize.ShloMosaic.ValueIdx Idealize.SL.Sem
open scoped BigOperators

namespace Cert.ReferenceIdeal.Accum

open Cert.ReferenceIdeal Cert.ReferenceIdeal.Gen

variable (m : (ℓ : Loc nD τ sig) → Buf (Elt Ideal) ℓ)

/-- The stacked left factor as the call finds it, -/
abbrev lhsArr (c : Dev nD) : S16384x2048.Idx → EReal := V m c main_v0
/-- the right factor, -/
abbrev rhsArr (c : Dev nD) : S2048x512.Idx → EReal := V m c main_arg1
/-- and point t's blocks of the two. -/
abbrev xblk (c : Dev nD) (t : Fin cfg0.N) : Vec Ideal S512x512 .f32 := iblk m c 0 t
abbrev yblk (c : Dev nD) (t : Fin cfg0.N) : Vec Ideal S512x512 .f32 := iblk m c 1 t

/-- Which blocks point t takes: row block t / 4, stretch t % 4. -/
theorem idx_facts : ∀ t : Fin cfg0.N, win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- The left block's entry (r, j) is the left factor's at (p, k) when p = 512 (t / 4) + r and k = 512 (t % 4) + j. -/
theorem xblk_apply (c : Dev nD) (t : Fin cfg0.N) (r j : Fin 512) (p : Fin 16384) (k : Fin 2048)
    (hp : p.val = 512 * (t.val / 4) + r.val) (hk : k.val = 512 * (t.val % 4) + j.val) :
    xblk m c t (ix2 r j) = lhsArr m c (ix2 p k) := by
  obtain ⟨e0, e1, e2, e3, e4, e5⟩ := idx_facts t
  show V m c main_v0 (((cfg0.win 0).blk t).view.emb (ix2 r j)) = V m c main_v0 _
  refine congrArg _ ?_
  funext a; apply Fin.ext
  match a with
  | ⟨0, _⟩ => show win0_0.index t (0 : Fin 2) * 512 + 1 * r.val = p.val; omega
  | ⟨1, _⟩ => show win0_0.index t (1 : Fin 2) * 512 + 1 * j.val = k.val; omega

/-- The right block's entry (j, d) is the right factor's at (k, d) when k = 512 (t % 4) + j. -/
theorem yblk_apply (c : Dev nD) (t : Fin cfg0.N) (j d : Fin 512) (k : Fin 2048)
    (hk : k.val = 512 * (t.val % 4) + j.val) :
    yblk m c t (ix2 j d) = rhsArr m c (ix2 k d) := by
  obtain ⟨e0, e1, e2, e3, e4, e5⟩ := idx_facts t
  show V m c main_arg1 (((cfg0.win 1).blk t).view.emb (ix2 j d)) = V m c main_arg1 _
  refine congrArg _ ?_
  funext a; apply Fin.ext
  match a with
  | ⟨0, _⟩ => show win0_1.index t (0 : Fin 2) * 512 + 1 * j.val = k.val; omega
  | ⟨1, _⟩ => show win0_1.index t (1 : Fin 2) * 512 + 1 * d.val = d.val; omega

/-- So the blocks' row-by-column sum is one stretch of the product's terms. -/
theorem stretch_eq (c : Dev nD) (t : Fin cfg0.N) (r d : Fin 512) (p : Fin 16384) (hp : p.val = 512 * (t.val / 4) + r.val) :
    ∑ j : Fin 512, xblk m c t (ix2 r j) * yblk m c t (ix2 j d)
      = ∑ j : Fin 512, RowDot.term (lhsArr m c) (rhsArr m c) p d (512 * (t.val % 4) + j.val) := by
  refine Finset.sum_congr rfl fun j _ => ?_
  have hj : j.val < 512 := j.isLt
  have hk : 512 * (t.val % 4) + j.val < 2048 := by omega
  rw [RowDot.term_of_lt _ _ p d _ hk, xblk_apply m c t r j p ⟨_, hk⟩ hp rfl, yblk_apply m c t j d ⟨_, hk⟩ rfl]

/-! ## What the scratch and the output block hold after each point, as the update of the point before -/

/-- At a first stretch the scratch ends at the update of the zero block. -/
theorem scratch_first (c : Dev nD) (t : Fin cfg0.N) (h0 : t.val % 4 = 0) :
    (outsAt0 m c t.val t.isLt).2 = Block.step Block.zeroBlock (xblk m c t) (yblk m c t) := by
  have h1 : ¬t.val % 4 = 3 := by omega
  rw [outsAt0_A m c t h0 h1]
  dsimp only
  exact Block.scratch_first (F := Ideal) c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- At a later stretch it ends at the update of what the point before left. -/
theorem scratch_later (c : Dev nD) (t : Fin cfg0.N) (h0 : ¬t.val % 4 = 0) :
    (outsAt0 m c t.val t.isLt).2
      = Block.step (outsAt0 m c (t.val - 1) (Nat.lt_of_le_of_lt (Nat.sub_le _ _) t.isLt)).2 (xblk m c t) (yblk m c t) := by
  by_cases h1 : t.val % 4 = 3
  · rw [outsAt0_C m c t h0 h1]
    dsimp only
    exact Block.scratch_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact Block.scratch_middle (F := Ideal) c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- At a last stretch the output block is stored with what the scratch ends holding. -/
theorem out_last (c : Dev nD) (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  exact (Block.out_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (Block.scratch_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2).symm

/-! ## The running sum -/

/-- After point n the scratch holds, at (r, d), the first 512 (n % 4 + 1) terms of entry (512 (n / 4) + r, d) of the
    product. (The row p and the count N are variables tied to n by equations, so that the arithmetic between a point
    and the point before is linear arithmetic on natural numbers.) -/
theorem scratch_eq (c : Dev nD) : ∀ (n : ℕ) (h : n < cfg0.N) (r d : Fin 512) (p : Fin 16384) (N : ℕ),
    p.val = 512 * (n / 4) + r.val → N = 512 * (n % 4 + 1) →
    (outsAt0 m c n h).2 (ix2 r d) = RowDot.firstTerms (lhsArr m c) (rhsArr m c) p d N := by
  intro n
  induction n with
  | zero =>
    intro h r d p N hp hN
    subst hN
    rw [scratch_first m c ⟨0, h⟩ rfl, Block.step_apply, Block.zeroBlock_apply,
      stretch_eq m c ⟨0, h⟩ r d p hp]
    have e := RowDot.firstTerms_stretch (lhsArr m c) (rhsArr m c) p d 0
    rw [RowDot.firstTerms_zero] at e
    exact e.symm
  | succ n ih =>
    intro h r d p N hp hN
    subst hN
    by_cases h0 : (n + 1) % 4 = 0
    · rw [scratch_first m c ⟨n + 1, h⟩ h0, Block.step_apply, Block.zeroBlock_apply,
        stretch_eq m c ⟨n + 1, h⟩ r d p hp]
      have e := RowDot.firstTerms_stretch (lhsArr m c) (rhsArr m c) p d 0
      rw [RowDot.firstTerms_zero] at e
      rw [h0]
      exact e.symm
    · rw [scratch_later m c ⟨n + 1, h⟩ h0, Block.step_apply, stretch_eq m c ⟨n + 1, h⟩ r d p hp]
      show (outsAt0 m c n _).2 (ix2 r d) + _ = _
      rw [ih (Nat.lt_of_succ_lt h) r d p (512 * ((n + 1) % 4)) (by omega) (by omega)]
      have e := RowDot.firstTerms_stretch (lhsArr m c) (rhsArr m c) p d (512 * ((n + 1) % 4))
      rw [show 512 * ((n + 1) % 4 + 1) = 512 * ((n + 1) % 4) + 512 from by ring]
      exact e.symm

/-- So after a last stretch the output block holds, at (r, d), entry (512 (t / 4) + r, d) of the product. -/
theorem out_eq (c : Dev nD) (t : Fin cfg0.N) (h1 : t.val % 4 = 3) (r d : Fin 512) (p : Fin 16384)
    (hp : p.val = 512 * (t.val / 4) + r.val) :
    (outsAt0 m c t.val t.isLt).1 (ix2 r d) = RowDot.prod (lhsArr m c) (rhsArr m c) (ix2 p d) := by
  rw [out_last m c t h1, scratch_eq m c t.val t.isLt r d p 2048 hp (by omega)]
  exact RowDot.firstTerms_all _ _ p d

end Cert.ReferenceIdeal.Accum

end
-- ==== Proof.RefArray.lean ====
/-
  The reference's result, read off its run. Only the last stretch of each row block writes its output block
  back: point t with t % 4 = 3 writes rows 512 (t / 4) … 512 (t / 4) + 511, and what it writes is those rows of
  the product matrix (the running sum is complete there). The 32 row blocks tile the product's 16384 rows: row i
  lies in the block written at point 4 (i / 512) + 3. So after the run the output array is the product matrix,
  between the same two re-arrangements as in the kernel.
-/
import proofs.«107316_g2000205745379852_pallasbulk_1175_7_alg».proof.Proof.RefAccum
import proofs.«107316_g2000205745379852_pallasbulk_1175_7_alg».proof.Proof.RowDot
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.ReferenceIdeal.Array

open Cert.ReferenceIdeal Cert.ReferenceIdeal.Gen Cert.ReferenceIdeal.Accum

variable (m : (ℓ : Loc nD τ sig) → Buf (Elt Ideal) ℓ) (ρ : Dev nD → PrngReg)

/-- What a last stretch's point writes back is its row block of the product matrix. -/
theorem flushed_eq (c : Dev nD) (t : Fin cfg0.N) (hf : (cfg0.win 2).flush t = true) :
    (dats m 0 c).flushed 2 t
      = ((cfg0.win 2).blk t).view.read (Elt Ideal) (RowDot.prod (lhsArr m c) (rhsArr m c)) := by
  have h1 : t.val % 4 = 3 := (flush0_2 t).mp hf
  have hN : t.val < 128 := lt_of_lt_of_eq t.isLt (show cfg0.N = 128 from N_0)
  obtain ⟨e0, e1, e2, e3, e4, e5⟩ := idx_facts t
  show (cfg0.win 2).cut (grid0.coords t) ((dats m 0 c).after 2 t) = _
  rw [after0_2]
  funext j
  obtain ⟨r, d, rfl⟩ : ∃ (r : Fin 512) (d : Fin 512), j = ix2 r d := ⟨j 0, j 1, eq_ix2 j⟩
  have hr : r.val < 512 := r.isLt
  show (outsAt0 m c t.val t.isLt).1 (ix2 r d)
    = RowDot.prod (lhsArr m c) (rhsArr m c) (((cfg0.win 2).blk t).view.emb (ix2 r d))
  rw [out_eq m c t h1 r d ⟨512 * (t.val / 4) + r.val, by omega⟩ rfl]
  refine congrArg _ ?_
  funext a; apply Fin.ext
  match a with
  | ⟨0, _⟩ => show 512 * (t.val / 4) + r.val = win0_2.index t (0 : Fin 2) * 512 + 1 * r.val; omega
  | ⟨1, _⟩ => show d.val = win0_2.index t (1 : Fin 2) * 512 + 1 * d.val; omega

/-- An index of the output is in point t's block iff each coordinate is in the block's range on its axis. -/
theorem mem_blk (t : Fin cfg0.N) (i : S16384x512.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v1).slice (win0_2.rect t)).set ↔ _
  rw [View.set_slice_whole, Rect.mem_set_unit]
  exact Iff.rfl

/-- Row i of the output lies in the block written back at point 4 (i / 512) + 3. -/
theorem cover (i : S16384x512.Idx) :
    ∃ t : Fin cfg0.N, (cfg0.win 2).flush t = true ∧ i ∈ ((cfg0.win 2).blk t).view.set := by
  have hi0 : (i 0).val < 16384 := (i 0).isLt
  have hi1 : (i 1).val < 512 := (i 1).isLt
  have hN : cfg0.N = 128 := N_0
  let t : Fin cfg0.N := ⟨4 * ((i 0).val / 512) + 3, by rw [hN]; omega⟩
  have ht : t.val = 4 * ((i 0).val / 512) + 3 := rfl
  obtain ⟨e0, e1, e2, e3, e4, e5⟩ := idx_facts t
  refine ⟨t, (flush0_2 t).mpr (by omega), ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 512 ≤ (i 1).val ∧ (i 1).val < win0_2.index t (1 : Fin 2) * 512 + 512
    omega

/-- So the output array ends holding the product matrix. -/
theorem final (c : Dev nD) : (dats m 0 c).arrAt 2 cfg0.N = RowDot.prod (lhsArr m c) (rhsArr m c) :=
  (dats m 0 c).arrAt_eq_of_cover 2 (RowDot.prod (lhsArr m c) (rhsArr m c)) (flushed_eq m c) cover

/-- The left factor the call finds is the batch stacked (the one host line before the call). -/
theorem lhsArr_eq (c : Dev nD) :
    lhsArr m c = shapeCast S16384x2048 (m ((c : Thread nD τ).loc main_arg0)) shapeCasts_S8x2048x2048_S16384x2048 := by
  show StableHlo.after hostOps0 (fun b => m (c, b)) (Proc.devRef .tc main_v0) = _
  after_results
  rfl

/-- The right factor is the second argument as given. -/
theorem rhsArr_eq (c : Dev nD) : rhsArr m c = m ((c : Thread nD τ).loc main_arg1) := V_main_arg1 m c

/-- The returned array is the output array dealt back into eight matrices (the one host line after the call). -/
theorem tail_eq (c : Dev nD) :
    Pipeline.afterTail₀ cfgs (dats m) 0 (V0 m) [hostOps1] c main_v2
      = shapeCast S8x2048x512 ((dats m 0 c).arrAt 2 cfg0.N) shapeCasts_S16384x512_S8x2048x512 := by
  unfold Pipeline.afterTail₀
  show StableHlo.after hostOps1 _ (Proc.devRef .tc main_v2) = _
  after_results
  exact congrArg (fun x => shapeCast S8x2048x512 x shapeCasts_S16384x512_S8x2048x512)
    (Pipeline.withArrays_arr spec0 launch0.win.arr_inj c _ _ 2)

/-- The run, read: the returned array is the common result of the two arguments, which end unchanged. -/
theorem run : θ_run defs (onTc (τ := τ) (main (F := Ideal))) ⟨m, fun _ => 0, ρ⟩ fun r => ∀ c : Dev nD,
      r.2.mem ((c.tc : Thread nD τ).loc main_v2)
        = RowDot.result (m ((c.tc : Thread nD τ).loc main_arg0)) (m ((c.tc : Thread nD τ).loc main_arg1))
            shapeCasts_S8x2048x2048_S16384x2048 shapeCasts_S16384x512_S8x2048x512
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans
        ((tail_eq m c).trans (by rw [final, lhsArr_eq, rhsArr_eq]; rfl)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.ReferenceIdeal.Array

end
-- ==== Proof.lean ====
/-
  The batched product  out[b] = adj[b] · W  for eight 2048 x 2048 matrices adj[b] and one 2048 x 512 matrix W.

  Both programs stack the eight matrices into one 16384 x 2048 left factor A, form the product A W, and deal
  its rows back into eight matrices. They differ in how an entry's sum over the 2048 columns is formed:

    the kernel     : row blocks of 2048 rows, each entry's 2048 terms summed in one piece (its operands narrowed
                     to bf16 first, which over the extended reals is the identity);
    the reference  : row blocks of 512 rows, each entry's terms summed in four consecutive stretches of 512,
                     a scratch block carrying the running sum from stretch to stretch.

  Over the extended reals addition is commutative and associative, so both sums are the entry
  ∑ k, A (p, k) * W (k, q); no finiteness of the inputs is used. The two runs are read to that one function of
  the arguments (the kernel's in KernelBlock / KernelArray, the reference's in RefBlock / RefAccum / RefArray,
  the function and its partial sums in RowDot), and the arguments agree.

  The three frames are the generated ones; the ideal pass rewrote nothing, so `preserves` is `True`.
-/
import proofs.«107316_g2000205745379852_pallasbulk_1175_7_alg».proof.Defs
import proofs.«107316_g2000205745379852_pallasbulk_1175_7_alg».proof.Proof.Gen.Kernel
import proofs.«107316_g2000205745379852_pallasbulk_1175_7_alg».proof.Proof.Gen.Kernel.Skeleton
import proofs.«107316_g2000205745379852_pallasbulk_1175_7_alg».proof.Proof.Gen.Kernel.Launch
import proofs.«107316_g2000205745379852_pallasbulk_1175_7_alg».proof.Proof.Gen.Kernel.Points
import proofs.«107316_g2000205745379852_pallasbulk_1175_7_alg».proof.Proof.Gen.Kernel.Frame
import proofs.«107316_g2000205745379852_pallasbulk_1175_7_alg».proof.Proof.Gen.KernelIdeal
import proofs.«107316_g2000205745379852_pallasbulk_1175_7_alg».proof.Proof.Gen.KernelIdeal.Skeleton
import proofs.«107316_g2000205745379852_pallasbulk_1175_7_alg».proof.Proof.Gen.KernelIdeal.Launch
import proofs.«107316_g2000205745379852_pallasbulk_1175_7_alg».proof.Proof.Gen.KernelIdeal.Points
import proofs.«107316_g2000205745379852_pallasbulk_1175_7_alg».proof.Proof.Gen.KernelIdeal.Frame
import proofs.«107316_g2000205745379852_pallasbulk_1175_7_alg».proof.Proof.Gen.ReferenceIdeal
import proofs.«107316_g2000205745379852_pallasbulk_1175_7_alg».proof.Proof.Gen.ReferenceIdeal.Skeleton
import proofs.«107316_g2000205745379852_pallasbulk_1175_7_alg».proof.Proof.Gen.ReferenceIdeal.Launch
import proofs.«107316_g2000205745379852_pallasbulk_1175_7_alg».proof.Proof.Gen.ReferenceIdeal.Points
import proofs.«107316_g2000205745379852_pallasbulk_1175_7_alg».proof.Proof.Gen.ReferenceIdeal.Frame
import proofs.«107316_g2000205745379852_pallasbulk_1175_7_alg».proof.Proof.Gen.Pre_finite_inputs
import proofs.«107316_g2000205745379852_pallasbulk_1175_7_alg».proof.Proof.KernelArray
import proofs.«107316_g2000205745379852_pallasbulk_1175_7_alg».proof.Proof.RefArray
import Idealize.ShloMosaic.Adequacy
import Idealize.ShloMosaic.Init

noncomputable section

namespace Cert.Proof

open Idealize.ShloMosaic Idealize.SL.Sem Cert.Kernel

/-- The kernel runs and keeps its arguments, as printed … -/
theorem frame_k : Cert.frame_Kernel :=
  fun m ρ _ => Cert.Kernel.Gen.frame m ρ
/-- … and idealized; -/
theorem frame_ki : Cert.frame_KernelIdeal :=
  fun m ρ _ => Cert.KernelIdeal.Gen.frame m ρ
/-- so does the reference. -/
theorem frame_ri : Cert.frame_ReferenceIdeal :=
  fun m ρ _ => Cert.ReferenceIdeal.Gen.frame m ρ

/-- From arguments that agree both programs return the common result: the product of the stacked batch with W,
    dealt back into eight matrices. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Array.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
